-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x96 : S_.BroadcastsInDim S800000x96 (![] : Fin 0 → Fin S800000x96.rank)
  reducesTo_S800000x96_S_d0_1 : S800000x96.ReducesTo [0, 1] S_
  bcast_S_S416x512 : S_.BroadcastsInDim S416x512 (![] : Fin 0 → Fin S416x512.rank)
  reducesTo_S416x512_S_d0_1 : S416x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S416x512 .f32) (main_arg6 : FVec F S512 .f32) (main_arg7 : FVec F S512x256 .f32) (main_arg8 : FVec F S256 .f32) (main_v13 : IVec S_ 1) (main_v16 : IVec S800000x96 1) : IVec S_ 1 :=
  let main_c_5 : IVec S_ 1 := constantI S_ 1 1#1
  let main_v17 : IVec S_ 1 := (fun x v => Host.reduce IntOp.andi x v reducesTo_S800000x96_S_d0_1 h_S_) main_v16 main_c_5
  let main_v18 : IVec S_ 1 := andi main_v13 main_v17
  let main_v19 : FVec F S416x512 .f32 := Host.absf main_arg5
  let main_cst_6 : FVec F S_ .f32 := constant S_ .f32 0x7F800000#32
  let main_v20 : FVec F S416x512 .f32 := broadcastInDim S416x512 ![] bcast_S_S416x512 main_cst_6
  let main_v21 : IVec S416x512 1 := cmpf .olt main_v19 main_v20
  let main_c_7 : IVec S_ 1 := constantI S_ 1 1#1
  let main_v22 : IVec S_ 1 := (fun x v => Host.reduce IntOp.andi x v reducesTo_S416x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S50000x128 .f32) (main_arg2 : FVec F S50000x64 .f32) (main_arg3 : FVec F S800000x96 .f32) (main_arg4 : IVec S2x800000 32) (main_arg5 : FVec F S416x512 .f32) (main_arg6 : FVec F S512 .f32) (main_arg7 : FVec F S512x256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S800000x96 .f32 := Host.absf main_arg3
  let main_cst_4 : FVec F S_ .f32 := constant S_ .f32 0x7F800000#32
  let main_v15 : FVec F S800000x96 .f32 := broadcastInDim S800000x96 ![] bcast_S_S800000x96 main_cst_4
  let main_v16 : IVec S800000x96 1 := cmpf .olt main_v14 main_v15
  fn_part1 (F := F) main_arg5 main_arg6 main_arg7 main_arg8 main_v13 main_v16
-- ==== Kernel.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S128x512 : Shape := ⟨2, ![128, 512]⟩
abbrev S64x512 : Shape := ⟨2, ![64, 512]⟩
abbrev S96x512 : Shape := ⟨2, ![96, 512]⟩
abbrev S1x512 : Shape := ⟨2, ![1, 512]⟩
abbrev S1x256 : Shape := ⟨2, ![1, 256]⟩
abbrev S50000x256 : Shape := ⟨2, ![50000, 256]⟩
abbrev S2000x128 : Shape := ⟨2, ![2000, 128]⟩
abbrev S2000x64 : Shape := ⟨2, ![2000, 64]⟩
abbrev S2000x96 : Shape := ⟨2, ![2000, 96]⟩
abbrev S2000x256 : Shape := ⟨2, ![2000, 256]⟩
abbrev S2000x512 : Shape := ⟨2, ![2000, 512]⟩

abbrev nBuf : Space → Nat
  | .hbm => 22
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x64, .f32⟩
  | .hbm, ⟨3, _⟩ => ⟨S800000x96, .f32⟩
  | .hbm, ⟨4, _⟩ => ⟨S2x800000, .i32⟩
  | .hbm, ⟨5, _⟩ => ⟨S416x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x96, .f32⟩
  | .hbm, ⟨13, _⟩ => ⟨S800000x1, .i32⟩
  | .hbm, ⟨14, _⟩ => ⟨S50000x96, .f32⟩
  | .hbm, ⟨15, _⟩ => ⟨S128x512, .f32⟩
  | .hbm, ⟨16, _⟩ => ⟨S128x512, .f32⟩
  | .hbm, ⟨17, _⟩ => ⟨S64x512, .f32⟩
  | .hbm, ⟨18, _⟩ => ⟨S96x512, .f32⟩
  | .hbm, ⟨19, _⟩ => ⟨S1x512, .f32⟩
  | .hbm, ⟨20, _⟩ => ⟨S1x256, .f32⟩
  | .hbm, ⟨21, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x64, .f32⟩
  | .local _ .vmem, ⟨5, _⟩ => ⟨S2000x64, .f32⟩
  | .local _ .vmem, ⟨6, _⟩ => ⟨S2000x96, .f32⟩
  | .local _ .vmem, ⟨7, _⟩ => ⟨S2000x96, .f32⟩
  | .local _ .vmem, ⟨8, _⟩ => ⟨S128x512, .f32⟩
  | .local _ .vmem, ⟨9, _⟩ => ⟨S128x512, .f32⟩
  | .local _ .vmem, ⟨10, _⟩ => ⟨S64x512, .f32⟩
  | .local _ .vmem, ⟨11, _⟩ => ⟨S96x512, .f32⟩
  | .local _ .vmem, ⟨12, _⟩ => ⟨S1x512, .f32⟩
  | .local _ .vmem, ⟨13, _⟩ => ⟨S512x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  slices_S416x512_S128x512_0_0 : S416x512.Slices ![0, 0] S128x512
  slices_S416x512_S128x512_128_0 : S416x512.Slices ![128, 0] S128x512
  slices_S416x512_S64x512_256_0 : S416x512.Slices ![256, 0] S64x512
  slices_S416x512_S96x512_320_0 : S416x512.Slices ![320, 0] S96x512
  shapeCasts_S512_S1x512 : S512.ShapeCasts S1x512
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x64_S2000x64_0_0 : ∀ a, (![0, 0] : Fin 2 → Nat) a + S2000x64.size a ≤ S2000x64.size a
  h_S2000x64 : 0 < S2000x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S96x512_S96x512_0_0 : ∀ a, (![0, 0] : Fin 2 → Nat) a + S96x512.size a ≤ S96x512.size a
  h_S96x512 : 0 < S96x512.numel
  shapeCasts_S96x512_S96x512 : S96x512.ShapeCasts S96x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000x96_S800000x1_S800000x96_1_0_0_1_wf : ScatterDims.WF S50000x96 S800000x1 S800000x96 [1] [0] [0] 1
  dot_S2000x128_S128x512_S2000x512_1_0_0_1_n_n_wf : DotDims.WF S2000x128 S128x512 S2000x512 [1] [0] [0] [1] [] []
  dot_S2000x64_S64x512_S2000x512_1_0_0_1_n_n_wf : DotDims.WF S2000x64 S64x512 S2000x512 [1] [0] [0] [1] [] []
  dot_S2000x96_S96x512_S2000x512_1_0_0_1_n_n_wf : DotDims.WF S2000x96 S96x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .f32 = 32 ∨ (Rect.block (s := S64x512) S64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x512.size a ≤ S96x512.size a
  hwx0_7 : ∀ i : grid0.Coords, EltTy.bits .f32 = 32 ∨ (Rect.block (s := S96x512) S96x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S50000x256.size a
  hwx0_11 : ∀ i : grid0.Coords, EltTy.bits .f32 = 32 ∨ (Rect.block (s := S50000x256) S2000x256.size (cc0_transform_11 i) (hinb0_11 i)).WholeWords (EltTy.packing .f32)

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x96_S96x512_S2000x512_1_0_0_1_n_n : DotDims S2000x96 S96x512 S2000x512 where
  lhsContracting := [1]
  rhsContracting := [0]
  lhsNonContracting := [0]
  rhsNonContracting := [1]
  lhsBatch := []
  rhsBatch := []
  wf := dot_S2000x96_S96x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S96x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S2000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S50000x416 : Shape := ⟨2, ![50000, 416]⟩
abbrev S50000x512 : Shape := ⟨2, ![50000, 512]⟩
abbrev S1x512 : Shape := ⟨2, ![1, 512]⟩
abbrev S50000x256 : Shape := ⟨2, ![50000, 256]⟩
abbrev S1x256 : Shape := ⟨2, ![1, 256]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x64, .f32⟩
  | .hbm, ⟨3, _⟩ => ⟨S800000x96, .f32⟩
  | .hbm, ⟨4, _⟩ => ⟨S2x800000, .i32⟩
  | .hbm, ⟨5, _⟩ => ⟨S416x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x96, .f32⟩
  | .hbm, ⟨13, _⟩ => ⟨S800000x1, .i32⟩
  | .hbm, ⟨14, _⟩ => ⟨S50000x96, .f32⟩
  | .hbm, ⟨15, _⟩ => ⟨S50000x416, .f32⟩
  | .hbm, ⟨16, _⟩ => ⟨S50000x512, .f32⟩
  | .hbm, ⟨17, _⟩ => ⟨S1x512, .f32⟩
  | .hbm, ⟨18, _⟩ => ⟨S50000x512, .f32⟩
  | .hbm, ⟨19, _⟩ => ⟨S50000x512, .f32⟩
  | .hbm, ⟨20, _⟩ => ⟨S_, .f32⟩
  | .hbm, ⟨21, _⟩ => ⟨S50000x512, .f32⟩
  | .hbm, ⟨22, _⟩ => ⟨S50000x512, .f32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  concatenates_S50000x128_S50000x128_S50000x64_S50000x96_S50000x416_d1 : Shape.Concatenates [S50000x128, S50000x128, S50000x64, S50000x96] S50000x416 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x96_S800000x1_S800000x96_1_0_0_1_wf : ScatterDims.WF S50000x96 S800000x1 S800000x96 [1] [0] [0] 1
  dot_S50000x416_S416x512_S50000x512_1_0_0_1_n_n_wf : DotDims.WF S50000x416 S416x512 S50000x512 [1] [0] [0] [1] [] []
  dot_S50000x512_S512x256_S50000x256_1_0_0_1_n_n_wf : DotDims.WF S50000x512 S512x256 S50000x256 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x416_S416x512_S50000x512_1_0_0_1_n_n : DotDims S50000x416 S416x512 S50000x512 where
  lhsContracting := [1]
  rhsContracting := [0]
  lhsNonContracting := [0]
  rhsNonContracting := [1]
  lhsBatch := []
  rhsBatch := []
  wf := dot_S50000x416_S416x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.HostPrefix.lean ====
/-
  What the program computes before the launch, and where each window's block sits.

  Before the launch the program forms the per-node sum of edge features, cuts the first weight matrix into its four
  bands of rows (0–127, 128–255, 256–319, 320–415) and re-lays each bias vector as one row. The grid has 25 points;
  at point t the four feature windows and the result window sit at block row t of their arrays, and the seven
  parameter windows hold their whole arrays at every point.
-/
import proofs.«151501_j50242527429369_1_alg».proof.Proof.Gen.KernelIdeal.Value
import Idealize.ShloMosaic.PureOps.Ideal
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## What the program computes before the launch -/

/-- The per-node sum of edge features: each edge's feature row added onto the row of the node named by the first row of
    the edge index, starting from zero. Kept as the program's own term; the reference computes the same one. -/
def edgeSum (ea : (⟨S800000x96, .f32⟩ : BufTy).Contents (Elt Ideal)) (ei : (⟨S2x800000, .i32⟩ : BufTy).Contents (Elt Ideal)) :
    (⟨S50000x96, .f32⟩ : BufTy).Contents (Elt Ideal) :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0
      (shapeCast _ (extractStridedSlice S1x800000 ![0, 0] ei slices_S2x800000_S1x800000_0_0) shapeCasts_S1x800000_S800000))
    ea

theorem V_edgeSum (c : Dev nD) :
    (V m c main_v4 : S50000x96.Idx → EReal) = edgeSum (m ((c : Thread nD τ).loc main_arg3)) (m ((c : Thread nD τ).loc main_arg4)) := by
  unfold edgeSum
  dsimp only [Gen.V, Gen.hostOps0]; after_results <;> rfl

theorem V_band0 (c : Dev nD) :
    (V m c main_v5 : S128x512.Idx → EReal) = extractStridedSlice S128x512 ![0, 0] (m ((c : Thread nD τ).loc main_arg5)) slices_S416x512_S128x512_0_0 := by
  dsimp only [Gen.V, Gen.hostOps0]; after_results <;> rfl
theorem V_band1 (c : Dev nD) :
    (V m c main_v6 : S128x512.Idx → EReal) = extractStridedSlice S128x512 ![128, 0] (m ((c : Thread nD τ).loc main_arg5)) slices_S416x512_S128x512_128_0 := by
  dsimp only [Gen.V, Gen.hostOps0]; after_results <;> rfl
theorem V_band2 (c : Dev nD) :
    (V m c main_v7 : S64x512.Idx → EReal) = extractStridedSlice S64x512 ![256, 0] (m ((c : Thread nD τ).loc main_arg5)) slices_S416x512_S64x512_256_0 := by
  dsimp only [Gen.V, Gen.hostOps0]; after_results <;> rfl
theorem V_band3 (c : Dev nD) :
    (V m c main_v8 : S96x512.Idx → EReal) = extractStridedSlice S96x512 ![320, 0] (m ((c : Thread nD τ).loc main_arg5)) slices_S416x512_S96x512_320_0 := by
  dsimp only [Gen.V, Gen.hostOps0]; after_results <;> rfl
theorem V_bias1 (c : Dev nD) :
    (V m c main_v9 : S1x512.Idx → EReal) = shapeCast _ (m ((c : Thread nD τ).loc main_arg6)) shapeCasts_S512_S1x512 := by
  dsimp only [Gen.V, Gen.hostOps0]; after_results <;> rfl
theorem V_bias2 (c : Dev nD) :
    (V m c main_v10 : S1x256.Idx → EReal) = shapeCast _ (m ((c : Thread nD τ).loc main_arg8)) shapeCasts_S256_S1x256 := by
  dsimp only [Gen.V, Gen.hostOps0]; after_results <;> rfl

/-! ## Where each window's block sits in its array

Decided over the 25 grid points: the four feature windows and the result window sit at block row t, the seven
parameter windows at block (0, 0). -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

end Cert.KernelIdeal.Whole

end
-- ==== Proof.NodeUpdate.lean ====
/-
  The node update as mathematics, independent of either program.

  A node's new feature row depends on ONE row of each of four feature arrays — the node's own features (128 wide), its
  recurrent features (128), its encoded measurement (64) and the sum of its incoming edges' features (96) — through a
  two-layer perceptron: a hidden row of 512 units, each the positive part of an affine form of the 416 joined input
  features, and an output row of 256 affine forms of the hidden row.

  The affine form of the hidden layer can be written two ways: as ONE sum over the 416 joined features against the
  416 rows of the first weight matrix, or as FOUR sums, one per feature array, each against its own band of rows
  (rows 0–127, 128–255, 256–319, 320–415), added left to right. The two agree on the extended reals because addition
  there is commutative and associative; no product is distributed and nothing is cancelled, so no finiteness is needed
  (`sum_bands`).
-/
import Idealize.ShloMosaic.PureOps.Ideal
import Idealize.ShloMosaic.Lib.ValueIdx
import Mathlib.Algebra.BigOperators.Fin

noncomputable section

namespace Cert.NodeUpdate

open Idealize.ShloMosaic

/-- Hidden unit `k` of one node: the positive part of the four banded sums, added left to right, plus the bias. The
    rows `xr`, `xlr`, `zr`, `ar` are the node's rows of the four feature arrays; `wx`, `wl`, `wz`, `wa` the four bands of
    the first weight matrix. -/
def hidRow (xr xlr : Fin 128 → EReal) (zr : Fin 64 → EReal) (ar : Fin 96 → EReal)
    (wx wl : Fin 128 → Fin 512 → EReal) (wz : Fin 64 → Fin 512 → EReal) (wa : Fin 96 → Fin 512 → EReal)
    (b1 : Fin 512 → EReal) (k : Fin 512) : EReal :=
  max (((((∑ a : Fin 128, xr a * wx a k) + ∑ a : Fin 128, xlr a * wl a k) + ∑ a : Fin 64, zr a * wz a k)
    + ∑ a : Fin 96, ar a * wa a k) + b1 k) 0

/-- Output unit `q` of one node from its hidden row. -/
def outRow (h : Fin 512 → EReal) (w2 : Fin 512 → Fin 256 → EReal) (b2 : Fin 256 → EReal) (q : Fin 256) : EReal :=
  (∑ k : Fin 512, h k * w2 k q) + b2 q

/-- A sum over 416 = 128 + 128 + 64 + 96 terms is the sum of its four bands, added left to right. -/
theorem sum_bands (f : Fin 416 → EReal) :
    ∑ a : Fin 416, f a
      = (((∑ a : Fin 128, f ⟨a.val, by have := a.isLt; omega⟩) + ∑ a : Fin 128, f ⟨128 + a.val, by have := a.isLt; omega⟩)
          + ∑ a : Fin 64, f ⟨256 + a.val, by have := a.isLt; omega⟩) + ∑ a : Fin 96, f ⟨320 + a.val, by have := a.isLt; omega⟩ := by
  have e1 := Fin.sum_univ_add (a := 320) (b := 96) f
  have e2 := Fin.sum_univ_add (a := 256) (b := 64) (fun i : Fin (256 + 64) => f (Fin.castAdd 96 i))
  have e3 := Fin.sum_univ_add (a := 128) (b := 128) (fun i : Fin (128 + 128) => f (Fin.castAdd 96 (Fin.castAdd 64 i)))
  exact e1.trans (congrArg₂ (· + ·) (e2.trans (congrArg₂ (· + ·) e3 rfl)) rfl)

section Arrays

/-- The first weight matrix's four bands of rows, as functions of a row inside the band and a hidden unit. -/
abbrev band0 (W1 : (⟨2, ![416, 512]⟩ : Shape).Idx → EReal) : Fin 128 → Fin 512 → EReal :=
  fun a k => W1 (ValueIdx.ix2 ⟨a.val, by have := a.isLt; omega⟩ k)
abbrev band1 (W1 : (⟨2, ![416, 512]⟩ : Shape).Idx → EReal) : Fin 128 → Fin 512 → EReal :=
  fun a k => W1 (ValueIdx.ix2 ⟨128 + a.val, by have := a.isLt; omega⟩ k)
abbrev band2 (W1 : (⟨2, ![416, 512]⟩ : Shape).Idx → EReal) : Fin 64 → Fin 512 → EReal :=
  fun a k => W1 (ValueIdx.ix2 ⟨256 + a.val, by have := a.isLt; omega⟩ k)
abbrev band3 (W1 : (⟨2, ![416, 512]⟩ : Shape).Idx → EReal) : Fin 96 → Fin 512 → EReal :=
  fun a k => W1 (ValueIdx.ix2 ⟨320 + a.val, by have := a.isLt; omega⟩ k)

/-- The updated feature of node `r` at output unit `q`, from the four feature arrays (the last one the per-node sum of
    edge features), the two weight matrices and the two biases. -/
def nodeOutAt (x xl : (⟨2, ![50000, 128]⟩ : Shape).Idx → EReal) (z : (⟨2, ![50000, 64]⟩ : Shape).Idx → EReal)
    (ag : (⟨2, ![50000, 96]⟩ : Shape).Idx → EReal) (W1 : (⟨2, ![416, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin 50000) (q : Fin 256) : EReal :=
  outRow
    (hidRow (fun a => x (ValueIdx.ix2 r a)) (fun a => xl (ValueIdx.ix2 r a)) (fun a => z (ValueIdx.ix2 r a))
      (fun a => ag (ValueIdx.ix2 r a)) (band0 W1) (band1 W1) (band2 W1) (band3 W1) (fun k => b1 (ValueIdx.ix1 k)))
    (fun k q => W2 (ValueIdx.ix2 k q)) (fun q => b2 (ValueIdx.ix1 q)) q

/-- The whole updated feature array, index by index. -/
def nodeOut (x xl : (⟨2, ![50000, 128]⟩ : Shape).Idx → EReal) (z : (⟨2, ![50000, 64]⟩ : Shape).Idx → EReal)
    (ag : (⟨2, ![50000, 96]⟩ : Shape).Idx → EReal) (W1 : (⟨2, ![416, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![50000, 256]⟩ : Shape).Idx → EReal :=
  fun j => nodeOutAt x xl z ag W1 b1 W2 b2 ⟨(j 0).val, (j 0).isLt⟩ ⟨(j 1).val, (j 1).isLt⟩

theorem nodeOut_ix2 (x xl : (⟨2, ![50000, 128]⟩ : Shape).Idx → EReal) (z : (⟨2, ![50000, 64]⟩ : Shape).Idx → EReal)
    (ag : (⟨2, ![50000, 96]⟩ : Shape).Idx → EReal) (W1 : (⟨2, ![416, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin 50000) (q : Fin 256) :
    nodeOut x xl z ag W1 b1 W2 b2 (ValueIdx.ix2 r q) = nodeOutAt x xl z ag W1 b1 W2 b2 r q := rfl

end Arrays

end Cert.NodeUpdate

end
-- ==== Proof.BlockReads.lean ====
/-
  Each window's block at a grid point, read at an entry, as an entry of an argument array.

  A block's entry (p, a) is the array's entry at (block row × block height + p, block column × block width + a). The four
  feature windows sit at block row t, so row p of their block at point t is row 2000 t + p of their array; the seven
  parameter windows sit at block (0, 0) and hold their whole arrays. The first weight matrix's bands are slices of it
  (band j starts at row 0, 128, 256, 320), and a bias row is the bias vector re-laid, so its column k is the vector's
  entry k. The per-node sum of edge features is read at an index and never opened.
-/
import proofs.«151501_j50242527429369_1_alg».proof.Proof.HostPrefix
import proofs.«151501_j50242527429369_1_alg».proof.Proof.NodeUpdate
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The node-feature block at point t: row p is row 2000 t + p of the node features. -/
theorem feat0_apply (c : Dev nD) (t : Fin cfg0.N) (p : Fin 2000) (a : Fin 128) (r : Fin 50000) (hr : r.val = 2000 * t.val + p.val) :
    (iblk m c 0 t : Vec Ideal S2000x128 .f32) (ix2 p a) = (m ((c : Thread nD τ).loc main_arg0) : S50000x128.Idx → EReal) (ix2 r a) := by
  unfold iblk
  rw [View.read_apply]
  show V m c main_arg0 _ = _
  refine (congrFun (V_main_arg0 m c) _).trans (congrArg _ (funext fun b => Fin.ext ?_))
  match b with
  | ⟨0, _⟩ => show win0_0.index t (0 : Fin 2) * 2000 + 1 * p.val = r.val; rw [(idx0 t).1, hr]; omega
  | ⟨1, _⟩ => show win0_0.index t (1 : Fin 2) * 128 + 1 * a.val = a.val; rw [(idx0 t).2]; omega

/-- The recurrent-feature block likewise. -/
theorem feat1_apply (c : Dev nD) (t : Fin cfg0.N) (p : Fin 2000) (a : Fin 128) (r : Fin 50000) (hr : r.val = 2000 * t.val + p.val) :
    (iblk m c 1 t : Vec Ideal S2000x128 .f32) (ix2 p a) = (m ((c : Thread nD τ).loc main_arg1) : S50000x128.Idx → EReal) (ix2 r a) := by
  unfold iblk
  rw [View.read_apply]
  show V m c main_arg1 _ = _
  refine (congrFun (V_main_arg1 m c) _).trans (congrArg _ (funext fun b => Fin.ext ?_))
  match b with
  | ⟨0, _⟩ => show win0_1.index t (0 : Fin 2) * 2000 + 1 * p.val = r.val; rw [(idx1 t).1, hr]; omega
  | ⟨1, _⟩ => show win0_1.index t (1 : Fin 2) * 128 + 1 * a.val = a.val; rw [(idx1 t).2]; omega

/-- The encoded-measurement block likewise. -/
theorem feat2_apply (c : Dev nD) (t : Fin cfg0.N) (p : Fin 2000) (a : Fin 64) (r : Fin 50000) (hr : r.val = 2000 * t.val + p.val) :
    (iblk m c 2 t : Vec Ideal S2000x64 .f32) (ix2 p a) = (m ((c : Thread nD τ).loc main_arg2) : S50000x64.Idx → EReal) (ix2 r a) := by
  unfold iblk
  rw [View.read_apply]
  show V m c main_arg2 _ = _
  refine (congrFun (V_main_arg2 m c) _).trans (congrArg _ (funext fun b => Fin.ext ?_))
  match b with
  | ⟨0, _⟩ => show win0_2.index t (0 : Fin 2) * 2000 + 1 * p.val = r.val; rw [(idx2 t).1, hr]; omega
  | ⟨1, _⟩ => show win0_2.index t (1 : Fin 2) * 64 + 1 * a.val = a.val; rw [(idx2 t).2]; omega

/-- The edge-sum block: row p is row 2000 t + p of the per-node sum of edge features. The sum itself is never opened:
    only the index it is read at moves. -/
theorem feat3_apply (c : Dev nD) (t : Fin cfg0.N) (p : Fin 2000) (a : Fin 96) (r : Fin 50000) (hr : r.val = 2000 * t.val + p.val) :
    (iblk m c 3 t : Vec Ideal S2000x96 .f32) (ix2 p a)
      = edgeSum (m ((c : Thread nD τ).loc main_arg3)) (m ((c : Thread nD τ).loc main_arg4)) (ix2 r a) := by
  unfold iblk
  rw [View.read_apply, V_edgeSum]
  refine (cast_eq _ _).trans (congrArg (edgeSum (m ((c : Thread nD τ).loc main_arg3)) (m ((c : Thread nD τ).loc main_arg4))) (funext fun b => Fin.ext ?_))
  match b with
  | ⟨0, _⟩ => show win0_3.index t (0 : Fin 2) * 2000 + 1 * p.val = r.val; rw [(idx3 t).1, hr]; omega
  | ⟨1, _⟩ => show win0_3.index t (1 : Fin 2) * 96 + 1 * a.val = a.val; rw [(idx3 t).2]; omega

/-- The first band of the first weight matrix, at every point. -/
theorem band0_apply (c : Dev nD) (t : Fin cfg0.N) (a : Fin 128) (k : Fin 512) :
    (iblk m c 4 t : Vec Ideal S128x512 .f32) (ix2 a k) = NodeUpdate.band0 (m ((c : Thread nD τ).loc main_arg5)) a k := by
  unfold iblk
  rw [View.read_apply]
  show (V m c main_v5 : S128x512.Idx → EReal) _ = _
  rw [V_band0]
  refine extractStridedSlice_apply _ _ _ _ _ (fun b => ?_)
  match b with
  | ⟨0, _⟩ => show a.val = 0 + (win0_4.index t (0 : Fin 2) * 128 + 1 * a.val); rw [(idx4 t).1]; omega
  | ⟨1, _⟩ => show k.val = 0 + (win0_4.index t (1 : Fin 2) * 512 + 1 * k.val); rw [(idx4 t).2]; omega

/-- The second band. -/
theorem band1_apply (c : Dev nD) (t : Fin cfg0.N) (a : Fin 128) (k : Fin 512) :
    (iblk m c 5 t : Vec Ideal S128x512 .f32) (ix2 a k) = NodeUpdate.band1 (m ((c : Thread nD τ).loc main_arg5)) a k := by
  unfold iblk
  rw [View.read_apply]
  show (V m c main_v6 : S128x512.Idx → EReal) _ = _
  rw [V_band1]
  refine extractStridedSlice_apply _ _ _ _ _ (fun b => ?_)
  match b with
  | ⟨0, _⟩ => show 128 + a.val = 128 + (win0_5.index t (0 : Fin 2) * 128 + 1 * a.val); rw [(idx5 t).1]; omega
  | ⟨1, _⟩ => show k.val = 0 + (win0_5.index t (1 : Fin 2) * 512 + 1 * k.val); rw [(idx5 t).2]; omega

/-- The third band. -/
theorem band2_apply (c : Dev nD) (t : Fin cfg0.N) (a : Fin 64) (k : Fin 512) :
    (iblk m c 6 t : Vec Ideal S64x512 .f32) (ix2 a k) = NodeUpdate.band2 (m ((c : Thread nD τ).loc main_arg5)) a k := by
  unfold iblk
  rw [View.read_apply]
  show (V m c main_v7 : S64x512.Idx → EReal) _ = _
  rw [V_band2]
  refine extractStridedSlice_apply _ _ _ _ _ (fun b => ?_)
  match b with
  | ⟨0, _⟩ => show 256 + a.val = 256 + (win0_6.index t (0 : Fin 2) * 64 + 1 * a.val); rw [(idx6 t).1]; omega
  | ⟨1, _⟩ => show k.val = 0 + (win0_6.index t (1 : Fin 2) * 512 + 1 * k.val); rw [(idx6 t).2]; omega

/-- The fourth band. -/
theorem band3_apply (c : Dev nD) (t : Fin cfg0.N) (a : Fin 96) (k : Fin 512) :
    (iblk m c 7 t : Vec Ideal S96x512 .f32) (ix2 a k) = NodeUpdate.band3 (m ((c : Thread nD τ).loc main_arg5)) a k := by
  unfold iblk
  rw [View.read_apply]
  show (V m c main_v8 : S96x512.Idx → EReal) _ = _
  rw [V_band3]
  refine extractStridedSlice_apply _ _ _ _ _ (fun b => ?_)
  match b with
  | ⟨0, _⟩ => show 320 + a.val = 320 + (win0_7.index t (0 : Fin 2) * 96 + 1 * a.val); rw [(idx7 t).1]; omega
  | ⟨1, _⟩ => show k.val = 0 + (win0_7.index t (1 : Fin 2) * 512 + 1 * k.val); rw [(idx7 t).2]; omega

/-- The first bias as one row, at every point: column k is entry k of the bias vector. -/
theorem bias1_apply (c : Dev nD) (t : Fin cfg0.N) (k : Fin 512) :
    (iblk m c 8 t : Vec Ideal S1x512 .f32) (ix2 0 k) = (m ((c : Thread nD τ).loc main_arg6) : S512.Idx → EReal) (ix1 k) := by
  unfold iblk
  rw [View.read_apply]
  show (V m c main_v9 : S1x512.Idx → EReal) _ = _
  rw [V_bias1]
  refine shapeCast_apply _ _ _ _ ?_
  show (S512.rowMajor (ix1 k)).val = (S1x512.rowMajor (((cfg0.win 8).blk t).view.emb (ix2 0 k))).val
  rewrite [Shape.rowMajor_val_one, Shape.rowMajor_val_two]
  show k.val = (win0_8.index t (0 : Fin 2) * 1 + 1 * 0) * 512 + (win0_8.index t (1 : Fin 2) * 512 + 1 * k.val)
  rw [(idx8 t).1, (idx8 t).2]; omega

/-- The second weight matrix, at every point. -/
theorem weight2_apply (c : Dev nD) (t : Fin cfg0.N) (k : Fin 512) (q : Fin 256) :
    (iblk m c 9 t : Vec Ideal S512x256 .f32) (ix2 k q) = (m ((c : Thread nD τ).loc main_arg7) : S512x256.Idx → EReal) (ix2 k q) := by
  unfold iblk
  rw [View.read_apply]
  show V m c main_arg7 _ = _
  refine (congrFun (V_main_arg7 m c) _).trans (congrArg _ (funext fun b => Fin.ext ?_))
  match b with
  | ⟨0, _⟩ => show win0_9.index t (0 : Fin 2) * 512 + 1 * k.val = k.val; rw [(idx9 t).1]; omega
  | ⟨1, _⟩ => show win0_9.index t (1 : Fin 2) * 256 + 1 * q.val = q.val; rw [(idx9 t).2]; omega

/-- The second bias as one row, at every point. -/
theorem bias2_apply (c : Dev nD) (t : Fin cfg0.N) (q : Fin 256) :
    (iblk m c 10 t : Vec Ideal S1x256 .f32) (ix2 0 q) = (m ((c : Thread nD τ).loc main_arg8) : S256.Idx → EReal) (ix1 q) := by
  unfold iblk
  rw [View.read_apply]
  show (V m c main_v10 : S1x256.Idx → EReal) _ = _
  rw [V_bias2]
  refine shapeCast_apply _ _ _ _ ?_
  show (S256.rowMajor (ix1 q)).val = (S1x256.rowMajor (((cfg0.win 10).blk t).view.emb (ix2 0 q))).val
  rewrite [Shape.rowMajor_val_one, Shape.rowMajor_val_two]
  show q.val = (win0_10.index t (0 : Fin 2) * 1 + 1 * 0) * 256 + (win0_10.index t (1 : Fin 2) * 256 + 1 * q.val)
  rw [(idx10 t).1, (idx10 t).2]; omega

end Cert.KernelIdeal.Whole

end
-- ==== Proof.BodyValue.lean ====
/-
  The kernel body's arithmetic, read one entry at a time at the ideal values.

  The body computes, for a block of 2000 nodes, the hidden block (four matrix products into zero accumulators, one per
  feature block against its band of the first weight matrix, added left to right, plus the bias row, then the positive
  part) and from it the output block (one more product plus the second bias row). A change of float format is the
  identity at the ideal values, a product into a zero accumulator is the plain sum over the contracted axis, and a bias
  row broadcast down the block is the bias at the entry's column. So entry (p, k) of the hidden block is `hidRow` of
  row p of the four feature blocks, and entry (p, q) of the output block is `outRow` of row p of the hidden block.
-/
import proofs.«151501_j50242527429369_1_alg».proof.Proof.Gen.KernelIdeal.Skeleton
import proofs.«151501_j50242527429369_1_alg».proof.Proof.NodeUpdate
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The four products, each as a sum over its contracted axis

For each product the operand indices at output entry (p, k) and contraction coordinate a are (p, a) on the left and
(a, k) on the right. -/

/-! ### 2000 × 128 times 128 × 512 -/

theorem lhs128_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs128_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs128_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs128_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

theorem prod128_apply (l : FVec Ideal S2000x128 .bf16) (r : FVec Ideal S128x512 .bf16) (p : Fin 2000) (k : Fin 512) :
    matmul dot_S2000x128_S128x512_S2000x512_1_0_0_1_n_n none l r (constant S2000x512 .f32 0x00000000#32) (ix2 p k)
      = ∑ a : Fin 128, l (ix2 p a) * r (ix2 a k) := by
  simp only [matmul]
  rw [Ideal.matmul_constant_zero_apply, ← Equiv.sum_comp (ValueIdx.contrEquiv1 dot_S2000x128_S128x512_S2000x512_1_0_0_1_n_n 128 rfl rfl).symm]
  refine Finset.sum_congr rfl fun a _ => ?_
  have hk := ValueIdx.contrEquiv1_symm_val dot_S2000x128_S128x512_S2000x512_1_0_0_1_n_n 128 rfl rfl a
  have el : dot_S2000x128_S128x512_S2000x512_1_0_0_1_n_n.lhsIdx (ix2 p k) ((ValueIdx.contrEquiv1 dot_S2000x128_S128x512_S2000x512_1_0_0_1_n_n 128 rfl rfl).symm a) = ix2 p a := funext fun b => Fin.ext (by
    match b with
    | ⟨0, _⟩ => exact lhs128_0 _ _
    | ⟨1, _⟩ => exact (lhs128_1 _ _).trans hk)
  have er : dot_S2000x128_S128x512_S2000x512_1_0_0_1_n_n.rhsIdx (ix2 p k) ((ValueIdx.contrEquiv1 dot_S2000x128_S128x512_S2000x512_1_0_0_1_n_n 128 rfl rfl).symm a) = ix2 a k := funext fun b => Fin.ext (by
    match b with
    | ⟨0, _⟩ => exact (rhs128_0 _ _).trans hk
    | ⟨1, _⟩ => exact rhs128_1 _ _)
  rw [el, er]

/-! ### 2000 × 64 times 64 × 512 -/

theorem lhs64_0 (i : S2000x512.Idx) (q : dot_S2000x64_S64x512_S2000x512_1_0_0_1_n_n.contr.Idx) :
    (dot_S2000x64_S64x512_S2000x512_1_0_0_1_n_n.lhsIdx i q 0).val = (i 0).val := by
  unfold DotDims.lhsIdx
  rw [dif_neg (show ¬(0 : Fin S2000x64.rank) ∈ dot_S2000x64_S64x512_S2000x512_1_0_0_1_n_n.lhsBatch by decide), dif_pos (show (0 : Fin S2000x64.rank) ∈ dot_S2000x64_S64x512_S2000x512_1_0_0_1_n_n.lhsNonContracting by decide)]
  rfl
theorem lhs64_1 (i : S2000x512.Idx) (q : dot_S2000x64_S64x512_S2000x512_1_0_0_1_n_n.contr.Idx) :
    (dot_S2000x64_S64x512_S2000x512_1_0_0_1_n_n.lhsIdx i q 1).val = (q ⟨0, by decide⟩).val :=
  dot_S2000x64_S64x512_S2000x512_1_0_0_1_n_n.lhsIdx_val_of_single rfl i q
theorem rhs64_0 (i : S2000x512.Idx) (q : dot_S2000x64_S64x512_S2000x512_1_0_0_1_n_n.contr.Idx) :
    (dot_S2000x64_S64x512_S2000x512_1_0_0_1_n_n.rhsIdx i q 0).val = (q ⟨0, by decide⟩).val :=
  dot_S2000x64_S64x512_S2000x512_1_0_0_1_n_n.rhsIdx_val_of_single rfl i q
theorem rhs64_1 (i : S2000x512.Idx) (q : dot_S2000x64_S64x512_S2000x512_1_0_0_1_n_n.contr.Idx) :
    (dot_S2000x64_S64x512_S2000x512_1_0_0_1_n_n.rhsIdx i q 1).val = (i 1).val := by
  unfold DotDims.rhsIdx
  rw [dif_neg (show ¬(1 : Fin S64x512.rank) ∈ dot_S2000x64_S64x512_S2000x512_1_0_0_1_n_n.rhsBatch by decide), dif_pos (show (1 : Fin S64x512.rank) ∈ dot_S2000x64_S64x512_S2000x512_1_0_0_1_n_n.rhsNonContracting by decide)]
  rfl

theorem prod64_apply (l : FVec Ideal S2000x64 .bf16) (r : FVec Ideal S64x512 .bf16) (p : Fin 2000) (k : Fin 512) :
    matmul dot_S2000x64_S64x512_S2000x512_1_0_0_1_n_n none l r (constant S2000x512 .f32 0x00000000#32) (ix2 p k)
      = ∑ a : Fin 64, l (ix2 p a) * r (ix2 a k) := by
  simp only [matmul]
  rw [Ideal.matmul_constant_zero_apply, ← Equiv.sum_comp (ValueIdx.contrEquiv1 dot_S2000x64_S64x512_S2000x512_1_0_0_1_n_n 64 rfl rfl).symm]
  refine Finset.sum_congr rfl fun a _ => ?_
  have hk := ValueIdx.contrEquiv1_symm_val dot_S2000x64_S64x512_S2000x512_1_0_0_1_n_n 64 rfl rfl a
  have el : dot_S2000x64_S64x512_S2000x512_1_0_0_1_n_n.lhsIdx (ix2 p k) ((ValueIdx.contrEquiv1 dot_S2000x64_S64x512_S2000x512_1_0_0_1_n_n 64 rfl rfl).symm a) = ix2 p a := funext fun b => Fin.ext (by
    match b with
    | ⟨0, _⟩ => exact lhs64_0 _ _
    | ⟨1, _⟩ => exact (lhs64_1 _ _).trans hk)
  have er : dot_S2000x64_S64x512_S2000x512_1_0_0_1_n_n.rhsIdx (ix2 p k) ((ValueIdx.contrEquiv1 dot_S2000x64_S64x512_S2000x512_1_0_0_1_n_n 64 rfl rfl).symm a) = ix2 a k := funext fun b => Fin.ext (by
    match b with
    | ⟨0, _⟩ => exact (rhs64_0 _ _).trans hk
    | ⟨1, _⟩ => exact rhs64_1 _ _)
  rw [el, er]

/-! ### 2000 × 96 times 96 × 512 -/

theorem lhs96_0 (i : S2000x512.Idx) (q : dot_S2000x96_S96x512_S2000x512_1_0_0_1_n_n.contr.Idx) :
    (dot_S2000x96_S96x512_S2000x512_1_0_0_1_n_n.lhsIdx i q 0).val = (i 0).val := by
  unfold DotDims.lhsIdx
  rw [dif_neg (show ¬(0 : Fin S2000x96.rank) ∈ dot_S2000x96_S96x512_S2000x512_1_0_0_1_n_n.lhsBatch by decide), dif_pos (show (0 : Fin S2000x96.rank) ∈ dot_S2000x96_S96x512_S2000x512_1_0_0_1_n_n.lhsNonContracting by decide)]
  rfl
theorem lhs96_1 (i : S2000x512.Idx) (q : dot_S2000x96_S96x512_S2000x512_1_0_0_1_n_n.contr.Idx) :
    (dot_S2000x96_S96x512_S2000x512_1_0_0_1_n_n.lhsIdx i q 1).val = (q ⟨0, by decide⟩).val :=
  dot_S2000x96_S96x512_S2000x512_1_0_0_1_n_n.lhsIdx_val_of_single rfl i q
theorem rhs96_0 (i : S2000x512.Idx) (q : dot_S2000x96_S96x512_S2000x512_1_0_0_1_n_n.contr.Idx) :
    (dot_S2000x96_S96x512_S2000x512_1_0_0_1_n_n.rhsIdx i q 0).val = (q ⟨0, by decide⟩).val :=
  dot_S2000x96_S96x512_S2000x512_1_0_0_1_n_n.rhsIdx_val_of_single rfl i q
theorem rhs96_1 (i : S2000x512.Idx) (q : dot_S2000x96_S96x512_S2000x512_1_0_0_1_n_n.contr.Idx) :
    (dot_S2000x96_S96x512_S2000x512_1_0_0_1_n_n.rhsIdx i q 1).val = (i 1).val := by
  unfold DotDims.rhsIdx
  rw [dif_neg (show ¬(1 : Fin S96x512.rank) ∈ dot_S2000x96_S96x512_S2000x512_1_0_0_1_n_n.rhsBatch by decide), dif_pos (show (1 : Fin S96x512.rank) ∈ dot_S2000x96_S96x512_S2000x512_1_0_0_1_n_n.rhsNonContracting by decide)]
  rfl

theorem prod96_apply (l : FVec Ideal S2000x96 .bf16) (r : FVec Ideal S96x512 .bf16) (p : Fin 2000) (k : Fin 512) :
    matmul dot_S2000x96_S96x512_S2000x512_1_0_0_1_n_n none l r (constant S2000x512 .f32 0x00000000#32) (ix2 p k)
      = ∑ a : Fin 96, l (ix2 p a) * r (ix2 a k) := by
  simp only [matmul]
  rw [Ideal.matmul_constant_zero_apply, ← Equiv.sum_comp (ValueIdx.contrEquiv1 dot_S2000x96_S96x512_S2000x512_1_0_0_1_n_n 96 rfl rfl).symm]
  refine Finset.sum_congr rfl fun a _ => ?_
  have hk := ValueIdx.contrEquiv1_symm_val dot_S2000x96_S96x512_S2000x512_1_0_0_1_n_n 96 rfl rfl a
  have el : dot_S2000x96_S96x512_S2000x512_1_0_0_1_n_n.lhsIdx (ix2 p k) ((ValueIdx.contrEquiv1 dot_S2000x96_S96x512_S2000x512_1_0_0_1_n_n 96 rfl rfl).symm a) = ix2 p a := funext fun b => Fin.ext (by
    match b with
    | ⟨0, _⟩ => exact lhs96_0 _ _
    | ⟨1, _⟩ => exact (lhs96_1 _ _).trans hk)
  have er : dot_S2000x96_S96x512_S2000x512_1_0_0_1_n_n.rhsIdx (ix2 p k) ((ValueIdx.contrEquiv1 dot_S2000x96_S96x512_S2000x512_1_0_0_1_n_n 96 rfl rfl).symm a) = ix2 a k := funext fun b => Fin.ext (by
    match b with
    | ⟨0, _⟩ => exact (rhs96_0 _ _).trans hk
    | ⟨1, _⟩ => exact rhs96_1 _ _)
  rw [el, er]

/-! ### 2000 × 512 times 512 × 256 -/

theorem lhs512_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs512_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs512_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs512_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem prod512_apply (l : FVec Ideal S2000x512 .bf16) (r : FVec Ideal S512x256 .bf16) (p : Fin 2000) (q : Fin 256) :
    matmul dot_S2000x512_S512x256_S2000x256_1_0_0_1_n_n none l r (constant S2000x256 .f32 0x00000000#32) (ix2 p q)
      = ∑ k : Fin 512, l (ix2 p k) * r (ix2 k q) := by
  simp only [matmul]
  rw [Ideal.matmul_constant_zero_apply, ← Equiv.sum_comp (ValueIdx.contrEquiv1 dot_S2000x512_S512x256_S2000x256_1_0_0_1_n_n 512 rfl rfl).symm]
  refine Finset.sum_congr rfl fun a _ => ?_
  have hk := ValueIdx.contrEquiv1_symm_val dot_S2000x512_S512x256_S2000x256_1_0_0_1_n_n 512 rfl rfl a
  have el : dot_S2000x512_S512x256_S2000x256_1_0_0_1_n_n.lhsIdx (ix2 p q) ((ValueIdx.contrEquiv1 dot_S2000x512_S512x256_S2000x256_1_0_0_1_n_n 512 rfl rfl).symm a) = ix2 p a := funext fun b => Fin.ext (by
    match b with
    | ⟨0, _⟩ => exact lhs512_0 _ _
    | ⟨1, _⟩ => exact (lhs512_1 _ _).trans hk)
  have er : dot_S2000x512_S512x256_S2000x256_1_0_0_1_n_n.rhsIdx (ix2 p q) ((ValueIdx.contrEquiv1 dot_S2000x512_S512x256_S2000x256_1_0_0_1_n_n 512 rfl rfl).symm a) = ix2 a q := funext fun b => Fin.ext (by
    match b with
    | ⟨0, _⟩ => exact (rhs512_0 _ _).trans hk
    | ⟨1, _⟩ => exact rhs512_1 _ _)
  rw [el, er]

/-! ## A bias row broadcast down the block -/

/-- The first bias row, re-laid as itself and broadcast to 2000 rows, read at (p, k): the bias at column k. -/
theorem bias512_apply (B : Vec Ideal S1x512 .f32) (p : Fin 2000) (k : Fin 512) :
    broadcastTo S2000x512 (shapeCast S1x512 B shapeCasts_S1x512_S1x512) broadcasts_S1x512_S2000x512 (ix2 p k) = B (ix2 0 k) := by
  rw [shapeCast_self]
  refine broadcastTo_apply B broadcasts_S1x512_S2000x512 (ix2 p k) (ix2 0 k) (fun a => ?_)
  match a with
  | ⟨0, _⟩ => rfl
  | ⟨1, _⟩ => rfl

/-- The second bias row likewise, at (p, q): the bias at column q. -/
theorem bias256_apply (B : Vec Ideal S1x256 .f32) (p : Fin 2000) (q : Fin 256) :
    broadcastTo S2000x256 (shapeCast S1x256 B shapeCasts_S1x256_S1x256) broadcasts_S1x256_S2000x256 (ix2 p q) = B (ix2 0 q) := by
  rw [shapeCast_self]
  refine broadcastTo_apply B broadcasts_S1x256_S2000x256 (ix2 p q) (ix2 0 q) (fun a => ?_)
  match a with
  | ⟨0, _⟩ => rfl
  | ⟨1, _⟩ => rfl

/-! ## The two payloads at an entry -/

/-- Entry (p, k) of the hidden block is `hidRow` of row p of the four feature blocks against the four weight bands. -/
theorem hidden_apply (X XL : Vec Ideal S2000x128 .f32) (Z : Vec Ideal S2000x64 .f32) (A : Vec Ideal S2000x96 .f32)
    (Wx Wl : Vec Ideal S128x512 .f32) (Wz : Vec Ideal S64x512 .f32) (Wa : Vec Ideal S96x512 .f32) (B1 : Vec Ideal S1x512 .f32)
    (p : Fin 2000) (k : Fin 512) :
    k0_pay2 (F := Ideal) X Wx XL Wl Z Wz A Wa B1 (ix2 p k)
      = NodeUpdate.hidRow (fun a => X (ix2 p a)) (fun a => XL (ix2 p a)) (fun a => Z (ix2 p a)) (fun a => A (ix2 p a))
          (fun a k => Wx (ix2 a k)) (fun a k => Wl (ix2 a k)) (fun a k => Wz (ix2 a k)) (fun a k => Wa (ix2 a k))
          (fun k => B1 (ix2 0 k)) k := by
  unfold k0_pay2 NodeUpdate.hidRow
  dsimp only
  rw [truncf_apply, maximumf_apply, addf_apply, addf_apply, addf_apply, addf_apply, broadcast_apply, bias512_apply,
    prod128_apply, prod128_apply, prod64_apply, prod96_apply]
  simp only [shapeCast_self, truncf_apply]
  show max _ (Ideal.ofBits .f32 0x00000000#32) = _
  rw [Ideal.ofBits_zero_f32]

/-- Entry (p, q) of the output block is `outRow` of row p of the hidden block against the second weight matrix. -/
theorem output_apply (H : FVec Ideal S2000x512 .bf16) (W2 : Vec Ideal S512x256 .f32) (B2 : Vec Ideal S1x256 .f32)
    (p : Fin 2000) (q : Fin 256) :
    k0_pay1 (F := Ideal) H W2 B2 (ix2 p q)
      = NodeUpdate.outRow (fun k => H (ix2 p k)) (fun k q => W2 (ix2 k q)) (fun q => B2 (ix2 0 q)) q := by
  unfold k0_pay1 NodeUpdate.outRow
  dsimp only
  rw [addf_apply, bias256_apply, prod512_apply]
  rfl

/-! ## The same two facts against given rows

The forms the block-level proof uses: whatever row p of each block and the parameter blocks are known to be, entry by
entry, the payloads are `hidRow` and `outRow` of those. -/

theorem hidden_of_rows (X XL : Vec Ideal S2000x128 .f32) (Z : Vec Ideal S2000x64 .f32) (A : Vec Ideal S2000x96 .f32)
    (Wx Wl : Vec Ideal S128x512 .f32) (Wz : Vec Ideal S64x512 .f32) (Wa : Vec Ideal S96x512 .f32) (B1 : Vec Ideal S1x512 .f32)
    (p : Fin 2000) (k : Fin 512)
    (xr xlr : Fin 128 → EReal) (zr : Fin 64 → EReal) (ar : Fin 96 → EReal)
    (wx wl : Fin 128 → Fin 512 → EReal) (wz : Fin 64 → Fin 512 → EReal) (wa : Fin 96 → Fin 512 → EReal) (b1 : Fin 512 → EReal)
    (hx : ∀ a, X (ix2 p a) = xr a) (hxl : ∀ a, XL (ix2 p a) = xlr a) (hz : ∀ a, Z (ix2 p a) = zr a) (ha : ∀ a, A (ix2 p a) = ar a)
    (hwx : ∀ a k, Wx (ix2 a k) = wx a k) (hwl : ∀ a k, Wl (ix2 a k) = wl a k) (hwz : ∀ a k, Wz (ix2 a k) = wz a k)
    (hwa : ∀ a k, Wa (ix2 a k) = wa a k) (hb : ∀ k, B1 (ix2 0 k) = b1 k) :
    k0_pay2 (F := Ideal) X Wx XL Wl Z Wz A Wa B1 (ix2 p k) = NodeUpdate.hidRow xr xlr zr ar wx wl wz wa b1 k := by
  rw [hidden_apply]
  have e0 : (fun a => X (ix2 p a)) = xr := funext hx
  have e1 : (fun a => XL (ix2 p a)) = xlr := funext hxl
  have e2 : (fun a => Z (ix2 p a)) = zr := funext hz
  have e3 : (fun a => A (ix2 p a)) = ar := funext ha
  have e4 : (fun a k => Wx (ix2 a k)) = wx := funext fun a => funext (hwx a)
  have e5 : (fun a k => Wl (ix2 a k)) = wl := funext fun a => funext (hwl a)
  have e6 : (fun a k => Wz (ix2 a k)) = wz := funext fun a => funext (hwz a)
  have e7 : (fun a k => Wa (ix2 a k)) = wa := funext fun a => funext (hwa a)
  have e8 : (fun k => B1 (ix2 0 k)) = b1 := funext hb
  rw [e0, e1, e2, e3, e4, e5, e6, e7, e8]

theorem output_of_rows (H : FVec Ideal S2000x512 .bf16) (W2 : Vec Ideal S512x256 .f32) (B2 : Vec Ideal S1x256 .f32)
    (p : Fin 2000) (q : Fin 256) (h : Fin 512 → EReal) (w2 : Fin 512 → Fin 256 → EReal) (b2 : Fin 256 → EReal)
    (hh : ∀ k, H (ix2 p k) = h k) (hw : ∀ k q, W2 (ix2 k q) = w2 k q) (hb : ∀ q, B2 (ix2 0 q) = b2 q) :
    k0_pay1 (F := Ideal) H W2 B2 (ix2 p q) = NodeUpdate.outRow h w2 b2 q := by
  rw [output_apply]
  have e0 : (fun k => H (ix2 p k)) = h := funext hh
  have e1 : (fun k q => W2 (ix2 k q)) = w2 := funext fun k => funext (hw k)
  have e2 : (fun q => B2 (ix2 0 q)) = b2 := funext hb
  rw [e0, e1, e2]

end Cert.KernelIdeal.Body

end
-- ==== Proof.KernelValue.lean ====
/-
  The kernel's result array, from its blocks, is `nodeOut` of the arguments.

  Point t writes back rows 2000 t … 2000 t + 1999 of the result. Entry (p, q) of what it writes is `outRow` of `hidRow`
  of row p of the feature blocks against the parameter blocks (the body's arithmetic), and row p of each feature block
  is row 2000 t + p of its array, so the entry is `nodeOutAt` of node 2000 t + p: the block point t writes is block t
  of `nodeOut`. Node r's row is written by point r / 2000, so the 25 blocks cover the result array, and it ends
  holding `nodeOut`.
-/
import proofs.«151501_j50242527429369_1_alg».proof.Proof.BlockReads
import proofs.«151501_j50242527429369_1_alg».proof.Proof.BodyValue

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The result array: `nodeOut` of the argument arrays, the fourth feature array being the per-node sum of edge
    features. -/
abbrev result (c : Dev nD) : Buf (Elt Ideal) ((c : Thread nD τ).loc main_v11) :=
  NodeUpdate.nodeOut (m ((c : Thread nD τ).loc main_arg0)) (m ((c : Thread nD τ).loc main_arg1)) (m ((c : Thread nD τ).loc main_arg2))
    (edgeSum (m ((c : Thread nD τ).loc main_arg3)) (m ((c : Thread nD τ).loc main_arg4)))
    (m ((c : Thread nD τ).loc main_arg5)) (m ((c : Thread nD τ).loc main_arg6)) (m ((c : Thread nD τ).loc main_arg7))
    (m ((c : Thread nD τ).loc main_arg8))

/-- Entry (p, q) of what point t writes is the update of node 2000 t + p at output unit q. -/
theorem written_apply (c : Dev nD) (t : Fin cfg0.N) (p : Fin 2000) (q : Fin 256) (r : Fin 50000) (hr : r.val = 2000 * t.val + p.val) :
    k0_pay1 (F := Ideal)
        (k0_pay2 (iblk m c 0 t) (iblk m c 4 t) (iblk m c 1 t) (iblk m c 5 t) (iblk m c 2 t) (iblk m c 6 t) (iblk m c 3 t) (iblk m c 7 t) (iblk m c 8 t))
        (iblk m c 9 t) (iblk m c 10 t) (ix2 p q)
      = NodeUpdate.nodeOutAt (m ((c : Thread nD τ).loc main_arg0)) (m ((c : Thread nD τ).loc main_arg1)) (m ((c : Thread nD τ).loc main_arg2))
          (edgeSum (m ((c : Thread nD τ).loc main_arg3)) (m ((c : Thread nD τ).loc main_arg4)))
          (m ((c : Thread nD τ).loc main_arg5)) (m ((c : Thread nD τ).loc main_arg6)) (m ((c : Thread nD τ).loc main_arg7))
          (m ((c : Thread nD τ).loc main_arg8)) r q := by
  unfold NodeUpdate.nodeOutAt
  refine Body.output_of_rows
    (k0_pay2 (iblk m c 0 t) (iblk m c 4 t) (iblk m c 1 t) (iblk m c 5 t) (iblk m c 2 t) (iblk m c 6 t) (iblk m c 3 t) (iblk m c 7 t) (iblk m c 8 t))
    (iblk m c 9 t) (iblk m c 10 t) p q _ _ _ (fun k => ?_) (fun k q' => weight2_apply m c t k q') (fun q' => bias2_apply m c t q')
  exact Body.hidden_of_rows (iblk m c 0 t) (iblk m c 1 t) (iblk m c 2 t) (iblk m c 3 t) (iblk m c 4 t) (iblk m c 5 t) (iblk m c 6 t)
    (iblk m c 7 t) (iblk m c 8 t) p k _ _ _ _ _ _ _ _ _
    (fun a => feat0_apply m c t p a r hr) (fun a => feat1_apply m c t p a r hr) (fun a => feat2_apply m c t p a r hr)
    (fun a => feat3_apply m c t p a r hr) (fun a k' => band0_apply m c t a k') (fun a k' => band1_apply m c t a k')
    (fun a k' => band2_apply m c t a k') (fun a k' => band3_apply m c t a k') (fun k' => bias1_apply m c t k')

/-- WHAT POINT t WRITES BACK is block t of the result. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz]
  simp only [View.ld_unit_zero (S := S2000x128) hz, View.ld_unit_zero (S := S128x512) hz, View.ld_unit_zero (S := S2000x64) hz,
    View.ld_unit_zero (S := S64x512) hz, View.ld_unit_zero (S := S2000x96) hz, View.ld_unit_zero (S := S96x512) hz,
    View.ld_unit_zero (S := S1x512) hz, View.ld_unit_zero (S := S512x256) hz, View.ld_unit_zero (S := S1x256) hz]
  have ht : t.val < 25 := lt_of_lt_of_eq t.isLt N_0
  funext j
  obtain ⟨p, q, rfl⟩ : ∃ (p : Fin 2000) (q : Fin 256), j = ix2 p q := ⟨j 0, j 1, eq_ix2 j⟩
  have hemb : ((cfg0.win 11).blk t).view.emb (ix2 p q) = (ix2 (⟨2000 * t.val + p.val, by have := p.isLt; omega⟩ : Fin 50000) q : S50000x256.Idx) :=
    funext fun b => Fin.ext (by
      match b with
      | ⟨0, _⟩ => show win0_11.index t (0 : Fin 2) * 2000 + 1 * p.val = 2000 * t.val + p.val; rw [(idx11 t).1]; omega
      | ⟨1, _⟩ => show win0_11.index t (1 : Fin 2) * 256 + 1 * q.val = q.val; rw [(idx11 t).2]; omega)
  show k0_pay1 (F := Ideal)
      (k0_pay2 (iblk m c 0 t) (iblk m c 4 t) (iblk m c 1 t) (iblk m c 5 t) (iblk m c 2 t) (iblk m c 6 t) (iblk m c 3 t) (iblk m c 7 t) (iblk m c 8 t))
      (iblk m c 9 t) (iblk m c 10 t) (ix2 p q) = result m c (((cfg0.win 11).blk t).view.emb (ix2 p q))
  rw [hemb]
  exact (written_apply m c t p q _ rfl).trans (NodeUpdate.nodeOut_ix2 _ _ _ _ _ _ _ _ _ q).symm

/-- An index of the result is in point t's block iff each coordinate is in the block's range on its axis. -/
theorem mem_blk (t : Fin cfg0.N) (i : S50000x256.Idx) :
    i ∈ ((cfg0.win 11).blk t).view.set ↔ ∀ a : Fin 2, win0_11.index t a * S2000x256.size a ≤ (i a).val ∧ (i a).val < win0_11.index t a * S2000x256.size a + S2000x256.size a := by
  show i ∈ ((View.whole main_v11).slice (win0_11.rect t)).set ↔ _
  rw [View.set_slice_whole, Rect.mem_set_unit]
  exact Iff.rfl

/-- Every node's row is in some point's block: node r's in point r / 2000's. -/
theorem covered (i : S50000x256.Idx) : ∃ t : Fin cfg0.N, (cfg0.win 11).flush t = true ∧ i ∈ ((cfg0.win 11).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  refine ⟨t, flush0_11 t, ?_⟩
  rw [mem_blk]
  obtain ⟨e0, e1⟩ := idx11 t
  intro a
  match a with
  | ⟨0, _⟩ => show win0_11.index t (0 : Fin 2) * 2000 ≤ (i 0).val ∧ (i 0).val < win0_11.index t (0 : Fin 2) * 2000 + 2000; rw [e0, ht]; omega
  | ⟨1, _⟩ => show win0_11.index t (1 : Fin 2) * 256 ≤ (i 1).val ∧ (i 1).val < win0_11.index t (1 : Fin 2) * 256 + 256; rw [e1]; omega

/-- So the result array ends holding `nodeOut` of the arguments. -/
theorem final (c : Dev nD) : (dats m 0 c).arrAt 11 cfg0.N = result m c :=
  (dats m 0 c).arrAt_eq_of_cover 11 (result m c) (fun t _ => flushed_eq m c t) covered

/-- The run, read: the result array at `nodeOut` of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.KernelIdeal.Whole

end
-- ==== Proof.ReferenceValue.lean ====
/-
  The reference's result, read one entry at a time at the ideal values, is `nodeOut`.

  The reference joins the four feature arrays along the feature axis into one 50000 × 416 array, multiplies by the
  whole first weight matrix, adds the bias, takes the positive part, multiplies by the second weight matrix and adds the
  second bias. Entry (r, a) of the joined array is entry (r, a) of the first array for a < 128, entry (r, a − 128) of the
  second for a < 256, (r, a − 256) of the third for a < 320 and (r, a − 320) of the fourth beyond; so the one sum over
  the 416 joined features, split into its four bands, is the four banded sums of `hidRow`. The per-node sum of edge
  features (the fourth array) is kept as the reference's own term: the kernel computes the same term.
-/
import proofs.«151501_j50242527429369_1_alg».proof.Proof.Gen.ReferenceIdeal.Read
import proofs.«151501_j50242527429369_1_alg».proof.Proof.NodeUpdate
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! ## The operand indices of the two products and of the two bias broadcasts -/

theorem left2 (r : Fin 50000) (q : Fin 256) (k : Fin 512) : lidx_main_v11 (ix2 r q) k = ix2 r k :=
  funext fun a => Fin.ext (by match a with | ⟨0, _⟩ => rfl | ⟨1, _⟩ => rfl)
theorem right2 (r : Fin 50000) (q : Fin 256) (k : Fin 512) : ridx_main_v11 (ix2 r q) k = ix2 k q :=
  funext fun a => Fin.ext (by match a with | ⟨0, _⟩ => rfl | ⟨1, _⟩ => rfl)
theorem bias2 (r : Fin 50000) (q : Fin 256) : idx_main_v12 (idx_main_v13 (ix2 r q)) = ix1 q :=
  funext fun a => Fin.ext (by match a with | ⟨0, _⟩ => rfl)
theorem left1 (r : Fin 50000) (k : Fin 512) (a : Fin 416) : lidx_main_v6 (ix2 r k) a = ix2 r a :=
  funext fun b => Fin.ext (by match b with | ⟨0, _⟩ => rfl | ⟨1, _⟩ => rfl)
theorem right1 (r : Fin 50000) (k : Fin 512) (a : Fin 416) : ridx_main_v6 (ix2 r k) a = ix2 a k :=
  funext fun b => Fin.ext (by match b with | ⟨0, _⟩ => rfl | ⟨1, _⟩ => rfl)
theorem bias1 (r : Fin 50000) (k : Fin 512) : idx_main_v7 (idx_main_v8 (ix2 r k)) = ix1 k :=
  funext fun a => Fin.ext (by match a with | ⟨0, _⟩ => rfl)

/-! ## The joined array, band by band -/

section Joined
variable (x0 x1 : (⟨S50000x128, .f32⟩ : BufTy).Contents (Elt Ideal)) (x2 : (⟨S50000x64, .f32⟩ : BufTy).Contents (Elt Ideal))
  (x3 : (⟨S800000x96, .f32⟩ : BufTy).Contents (Elt Ideal)) (x4 : (⟨S2x800000, .i32⟩ : BufTy).Contents (Elt Ideal))

theorem joined0 (r : Fin 50000) (a : Fin 128) :
    val_main_v5 (F := Ideal) x0 x1 x2 x3 x4 (ix2 r ⟨a.val, by have := a.isLt; omega⟩) = x0 (ix2 r a) := by
  unfold val_main_v5
  refine concatenate_apply_piece (t := S50000x416) 1 _ _ _ 0 ?_ S50000x128 x0 ?_ rfl 0 ?_ (ix2 r a) (fun b hb => ?_) ?_
  · show (0 : Nat) < 4; omega
  · rfl
  · rfl
  · match b with
    | ⟨0, _⟩ => rfl
    | ⟨1, _⟩ => exact absurd rfl hb
  · show 0 + a.val = a.val
    omega

theorem joined1 (r : Fin 50000) (a : Fin 128) :
    val_main_v5 (F := Ideal) x0 x1 x2 x3 x4 (ix2 r ⟨128 + a.val, by have := a.isLt; omega⟩) = x1 (ix2 r a) := by
  unfold val_main_v5
  refine concatenate_apply_piece (t := S50000x416) 1 _ _ _ 1 ?_ S50000x128 x1 ?_ rfl 128 ?_ (ix2 r a) (fun b hb => ?_) ?_
  · show (1 : Nat) < 4; omega
  · rfl
  · rfl
  · match b with
    | ⟨0, _⟩ => rfl
    | ⟨1, _⟩ => exact absurd rfl hb
  · rfl

theorem joined2 (r : Fin 50000) (a : Fin 64) :
    val_main_v5 (F := Ideal) x0 x1 x2 x3 x4 (ix2 r ⟨256 + a.val, by have := a.isLt; omega⟩) = x2 (ix2 r a) := by
  unfold val_main_v5
  refine concatenate_apply_piece (t := S50000x416) 1 _ _ _ 2 ?_ S50000x64 x2 ?_ rfl 256 ?_ (ix2 r a) (fun b hb => ?_) ?_
  · show (2 : Nat) < 4; omega
  · rfl
  · rfl
  · match b with
    | ⟨0, _⟩ => rfl
    | ⟨1, _⟩ => exact absurd rfl hb
  · rfl

theorem joined3 (r : Fin 50000) (a : Fin 96) :
    val_main_v5 (F := Ideal) x0 x1 x2 x3 x4 (ix2 r ⟨320 + a.val, by have := a.isLt; omega⟩)
      = val_main_v4 (F := Ideal) x3 x4 (ix2 r a) := by
  unfold val_main_v5
  refine concatenate_apply_piece (t := S50000x416) 1 _ _ _ 3 ?_ S50000x96 (val_main_v4 (F := Ideal) x3 x4) ?_ rfl 320 ?_ (ix2 r a) (fun b hb => ?_) ?_
  · show (3 : Nat) < 4; omega
  · rfl
  · rfl
  · match b with
    | ⟨0, _⟩ => rfl
    | ⟨1, _⟩ => exact absurd rfl hb
  · rfl

end Joined

/-! ## The hidden layer and the result -/

section Result
variable (x0 x1 : (⟨S50000x128, .f32⟩ : BufTy).Contents (Elt Ideal)) (x2 : (⟨S50000x64, .f32⟩ : BufTy).Contents (Elt Ideal))
  (x3 : (⟨S800000x96, .f32⟩ : BufTy).Contents (Elt Ideal)) (x4 : (⟨S2x800000, .i32⟩ : BufTy).Contents (Elt Ideal))
  (x5 : (⟨S416x512, .f32⟩ : BufTy).Contents (Elt Ideal)) (x6 : (⟨S512, .f32⟩ : BufTy).Contents (Elt Ideal))
  (x7 : (⟨S512x256, .f32⟩ : BufTy).Contents (Elt Ideal)) (x8 : (⟨S256, .f32⟩ : BufTy).Contents (Elt Ideal))

/-- The reference's hidden activation at (r, k) is `hidRow` of node r's rows: the sum over the 416 joined features
    is the four banded sums (`sum_bands`), each band of the joined array being one feature array. -/
theorem hidden_eq (r : Fin 50000) (k : Fin 512) :
    val_main_v10 (F := Ideal) x0 x1 x2 x3 x4 x5 x6 (ix2 r k)
      = NodeUpdate.hidRow (fun a => x0 (ix2 r a)) (fun a => x1 (ix2 r a)) (fun a => x2 (ix2 r a))
          (fun a => val_main_v4 (F := Ideal) x3 x4 (ix2 r a)) (NodeUpdate.band0 x5) (NodeUpdate.band1 x5)
          (NodeUpdate.band2 x5) (NodeUpdate.band3 x5) (fun k => x6 (ix1 k)) k := by
  unfold NodeUpdate.hidRow
  rw [val_main_v10_apply, val_main_v9_apply, val_main_v6_apply, val_main_v8_apply, val_main_v7_apply, bias1,
    val_main_call0_v0_apply, val_main_call0_cst_apply]
  simp only [left1, right1]
  rw [NodeUpdate.sum_bands]
  simp only [joined0, joined1, joined2, joined3]
  show max (_ + _) (Ideal.ofBits .f32 0x00000000#32) = _
  rw [Ideal.ofBits_zero_f32]

/-- The reference's result array is `nodeOut` of the arguments, the fourth feature array being the reference's own
    per-node sum of edge features. -/
theorem result_eq :
    val_main_v14 (F := Ideal) x0 x1 x2 x3 x4 x5 x6 x7 x8
      = NodeUpdate.nodeOut x0 x1 x2 (val_main_v4 (F := Ideal) x3 x4) x5 x6 x7 x8 := by
  funext i
  obtain ⟨r, q, rfl⟩ : ∃ (r : Fin 50000) (q : Fin 256), i = ix2 r q := ⟨i 0, i 1, eq_ix2 i⟩
  rw [NodeUpdate.nodeOut_ix2]
  unfold NodeUpdate.nodeOutAt NodeUpdate.outRow
  rw [val_main_v14_apply, val_main_v11_apply, val_main_v13_apply, val_main_v12_apply, bias2]
  simp only [left2, right2, hidden_eq]
  rfl

end Result

end Cert.ReferenceIdeal.RefValue

end
-- ==== Proof.lean ====
/-
  A graph network's node update, tiled over nodes, against its plain statement.

  Both programs first add each edge's 96 features onto the row of the node the edge points to (the same scatter-add,
  from zero, in both). The reference then joins the node's own features (128), its recurrent features (128), its encoded
  measurement (64) and that edge sum (96) into one 416-wide row, applies a two-layer perceptron — 512 hidden units with
  a positive part, 256 outputs — and returns the 50000 × 256 result. The kernel never joins anything: it walks the
  nodes 2000 at a time, multiplies each of the four feature blocks by its own band of rows of the first weight matrix
  (rows 0–127, 128–255, 256–319, 320–415), adds the four products left to right, and goes on as the reference does.

  At the ideal values a change of float format is the identity and a product into a zero accumulator is the plain sum
  over the contracted axis, so the only difference between the two is ONE sum over 416 joined features against FOUR
  sums over its bands added left to right. Addition of extended reals is commutative and associative, so the two agree
  for every input (`NodeUpdate.sum_bands`); nothing is distributed or cancelled, and the precondition (finite inputs) is
  never opened.

  The pieces: `NodeUpdate` states the update of one node from its rows (`hidRow`, `outRow`, `nodeOut`) and the banded
  sum; `BodyValue` reads the kernel body's two payloads at an entry; `HostPrefix` and `BlockReads` say what each
  window's block holds at a grid point; `KernelValue` puts the 25 written blocks together into the result array;
  `ReferenceValue` reads the reference's result at an entry. Here the two runs are set side by side. The idealization
  rewrote nothing in the kernel, so the fourth claim is trivial; the frames are the programs' runs with the result dropped.
-/
import proofs.«151501_j50242527429369_1_alg».proof.Defs
import proofs.«151501_j50242527429369_1_alg».proof.Proof.Gen.Kernel
import proofs.«151501_j50242527429369_1_alg».proof.Proof.Gen.Kernel.Skeleton
import proofs.«151501_j50242527429369_1_alg».proof.Proof.Gen.Kernel.Launch
import proofs.«151501_j50242527429369_1_alg».proof.Proof.Gen.Kernel.Points
import proofs.«151501_j50242527429369_1_alg».proof.Proof.Gen.Kernel.Frame
import proofs.«151501_j50242527429369_1_alg».proof.Proof.Gen.KernelIdeal
import proofs.«151501_j50242527429369_1_alg».proof.Proof.Gen.KernelIdeal.Skeleton
import proofs.«151501_j50242527429369_1_alg».proof.Proof.Gen.KernelIdeal.Launch
import proofs.«151501_j50242527429369_1_alg».proof.Proof.Gen.KernelIdeal.Points
import proofs.«151501_j50242527429369_1_alg».proof.Proof.Gen.KernelIdeal.Frame
import proofs.«151501_j50242527429369_1_alg».proof.Proof.Gen.ReferenceIdeal
import proofs.«151501_j50242527429369_1_alg».proof.Proof.Gen.Pre_finite_inputs
import proofs.«151501_j50242527429369_1_alg».proof.Proof.Gen.KernelIdeal.Value
import proofs.«151501_j50242527429369_1_alg».proof.Proof.Gen.ReferenceIdeal.Run
import proofs.«151501_j50242527429369_1_alg».proof.Proof.Gen.ReferenceIdeal.Read
import proofs.«151501_j50242527429369_1_alg».proof.Proof.KernelValue
import proofs.«151501_j50242527429369_1_alg».proof.Proof.ReferenceValue
import Idealize.ShloMosaic.Adequacy
import Idealize.ShloMosaic.Init

noncomputable section

namespace Cert.Proof

open Idealize.ShloMosaic Idealize.SL.Sem

/-- The per-node sum of edge features is ONE term in the two programs: the same scatter-add of the edge features onto a
    zero array at the first row of the edge index. Both sides are spelled out and compared as written; the sum is never
    evaluated. -/
theorem edgeSum_same (ea : (⟨Cert.KernelIdeal.S800000x96, .f32⟩ : BufTy).Contents (Elt Ideal))
    (ei : (⟨Cert.KernelIdeal.S2x800000, .i32⟩ : BufTy).Contents (Elt Ideal)) :
    Cert.KernelIdeal.Whole.edgeSum ea ei = Cert.ReferenceIdeal.Read.val_main_v4 (F := Ideal) ea ei := by
  unfold Cert.KernelIdeal.Whole.edgeSum Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst
  rfl

/-- The word-level kernel runs and leaves its arguments as they were. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the ideal values the kernel's result array ends at `nodeOut` of the arguments (the 25 written blocks put
    together) and the reference's at the same function of arguments that agree (its result read entry by entry, the one
    sum over the joined features split into its bands); the edge sums are one term. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v14_eq, Cert.ReferenceIdeal.RefValue.result_eq, a0, a1, a2, a3, a4, a5, a6, a7, a8,
    ← edgeSum_same]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
